-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S160000 : Shape := ⟨1, ![160000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S512 .f32) (main_arg7 : FVec F S512x64 .f32) (main_arg8 : FVec F S64 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x64 .f32 := Host.absf main_arg7
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S10000x512 .f32) (main_arg1 : IVec S160000 32) (main_arg2 : IVec S160000 32) (main_arg3 : FVec F S512x512 .f32) (main_arg4 : FVec F S512 .f32) (main_arg5 : FVec F S512x512 .f32) (main_arg6 : FVec F S512 .f32) (main_arg7 : FVec F S512x64 .f32) (main_arg8 : FVec F S64 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_v13 main_v16
-- ==== Kernel.lean ====
abbrev S10000x512 : Shape := ⟨2, ![10000, 512]⟩
abbrev S160000 : Shape := ⟨1, ![160000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S_ : Shape := ⟨0, ![]⟩
abbrev S10000 : Shape := ⟨1, ![10000]⟩
abbrev S160000x1 : Shape := ⟨2, ![160000, 1]⟩
abbrev S10000x1 : Shape := ⟨2, ![10000, 1]⟩
abbrev S160000x512 : Shape := ⟨2, ![160000, 512]⟩
abbrev S1x512 : Shape := ⟨2, ![1, 512]⟩
abbrev S1000x512 : Shape := ⟨2, ![1000, 512]⟩
abbrev S1x64 : Shape := ⟨2, ![1, 64]⟩
abbrev S10000x64 : Shape := ⟨2, ![10000, 64]⟩
abbrev S1000x64 : Shape := ⟨2, ![1000, 64]⟩

abbrev nBuf : Space → Nat
  | .hbm => 96
  | .vmem => 18
  | .smem => 0
  | _ => 0

abbrev bufTy : (tb : Table) → Fin (tcTables nBuf tb) → BufTy
  | .hbm, ⟨0, _⟩ => ⟨S10000x512, .f32⟩
  | .hbm, ⟨1, _⟩ => ⟨S160000, .i32⟩
  | .hbm, ⟨2, _⟩ => ⟨S160000, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x64, .f32⟩
  | .hbm, ⟨8, _⟩ => ⟨S64, .f32⟩
  | .hbm, ⟨9, _⟩ => ⟨S_, .f32⟩
  | .hbm, ⟨10, _⟩ => ⟨S160000, .f32⟩
  | .hbm, ⟨11, _⟩ => ⟨S_, .f32⟩
  | .hbm, ⟨12, _⟩ => ⟨S10000, .f32⟩
  | .hbm, ⟨13, _⟩ => ⟨S160000x1, .i32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S160000x1, .i32⟩
  | .hbm, ⟨18, _⟩ => ⟨S10000, .f32⟩
  | .hbm, ⟨19, _⟩ => ⟨S_, .f32⟩
  | .hbm, ⟨20, _⟩ => ⟨S_, .f32⟩
  | .hbm, ⟨21, _⟩ => ⟨S10000, .f32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S_, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000x1, .f32⟩
  | .hbm, ⟨34, _⟩ => ⟨S10000x512, .f32⟩
  | .hbm, ⟨35, _⟩ => ⟨S10000x512, .f32⟩
  | .hbm, ⟨36, _⟩ => ⟨S_, .i32⟩
  | .hbm, ⟨37, _⟩ => ⟨S160000, .i32⟩
  | .hbm, ⟨38, _⟩ => ⟨S160000, .i1⟩
  | .hbm, ⟨39, _⟩ => ⟨S_, .i32⟩
  | .hbm, ⟨40, _⟩ => ⟨S160000, .i32⟩
  | .hbm, ⟨41, _⟩ => ⟨S160000, .i32⟩
  | .hbm, ⟨42, _⟩ => ⟨S160000, .i32⟩
  | .hbm, ⟨43, _⟩ => ⟨S160000x1, .i32⟩
  | .hbm, ⟨44, _⟩ => ⟨S160000x512, .f32⟩
  | .hbm, ⟨45, _⟩ => ⟨S_, .f32⟩
  | .hbm, ⟨46, _⟩ => ⟨S10000x512, .f32⟩
  | .hbm, ⟨47, _⟩ => ⟨S160000x1, .i32⟩
  | .hbm, ⟨48, _⟩ => ⟨S10000x512, .f32⟩
  | .hbm, ⟨49, _⟩ => ⟨S10000x1, .f32⟩
  | .hbm, ⟨50, _⟩ => ⟨S10000x512, .f32⟩
  | .hbm, ⟨51, _⟩ => ⟨S10000x512, .f32⟩
  | .hbm, ⟨52, _⟩ => ⟨S1x512, .f32⟩
  | .hbm, ⟨53, _⟩ => ⟨S10000x512, .f32⟩
  | .hbm, ⟨54, _⟩ => ⟨S10000x1, .f32⟩
  | .hbm, ⟨55, _⟩ => ⟨S10000x512, .f32⟩
  | .hbm, ⟨56, _⟩ => ⟨S10000x512, .f32⟩
  | .hbm, ⟨57, _⟩ => ⟨S_, .i32⟩
  | .hbm, ⟨58, _⟩ => ⟨S160000, .i32⟩
  | .hbm, ⟨59, _⟩ => ⟨S160000, .i1⟩
  | .hbm, ⟨60, _⟩ => ⟨S_, .i32⟩
  | .hbm, ⟨61, _⟩ => ⟨S160000, .i32⟩
  | .hbm, ⟨62, _⟩ => ⟨S160000, .i32⟩
  | .hbm, ⟨63, _⟩ => ⟨S160000, .i32⟩
  | .hbm, ⟨64, _⟩ => ⟨S160000x1, .i32⟩
  | .hbm, ⟨65, _⟩ => ⟨S160000x512, .f32⟩
  | .hbm, ⟨66, _⟩ => ⟨S_, .f32⟩
  | .hbm, ⟨67, _⟩ => ⟨S10000x512, .f32⟩
  | .hbm, ⟨68, _⟩ => ⟨S160000x1, .i32⟩
  | .hbm, ⟨69, _⟩ => ⟨S10000x512, .f32⟩
  | .hbm, ⟨70, _⟩ => ⟨S10000x1, .f32⟩
  | .hbm, ⟨71, _⟩ => ⟨S10000x512, .f32⟩
  | .hbm, ⟨72, _⟩ => ⟨S10000x512, .f32⟩
  | .hbm, ⟨73, _⟩ => ⟨S1x512, .f32⟩
  | .hbm, ⟨74, _⟩ => ⟨S10000x512, .f32⟩
  | .hbm, ⟨75, _⟩ => ⟨S10000x1, .f32⟩
  | .hbm, ⟨76, _⟩ => ⟨S10000x512, .f32⟩
  | .hbm, ⟨77, _⟩ => ⟨S10000x512, .f32⟩
  | .hbm, ⟨78, _⟩ => ⟨S_, .i32⟩
  | .hbm, ⟨79, _⟩ => ⟨S160000, .i32⟩
  | .hbm, ⟨80, _⟩ => ⟨S160000, .i1⟩
  | .hbm, ⟨81, _⟩ => ⟨S_, .i32⟩
  | .hbm, ⟨82, _⟩ => ⟨S160000, .i32⟩
  | .hbm, ⟨83, _⟩ => ⟨S160000, .i32⟩
  | .hbm, ⟨84, _⟩ => ⟨S160000, .i32⟩
  | .hbm, ⟨85, _⟩ => ⟨S160000x1, .i32⟩
  | .hbm, ⟨86, _⟩ => ⟨S160000x512, .f32⟩
  | .hbm, ⟨87, _⟩ => ⟨S_, .f32⟩
  | .hbm, ⟨88, _⟩ => ⟨S10000x512, .f32⟩
  | .hbm, ⟨89, _⟩ => ⟨S160000x1, .i32⟩
  | .hbm, ⟨90, _⟩ => ⟨S10000x512, .f32⟩
  | .hbm, ⟨91, _⟩ => ⟨S10000x1, .f32⟩
  | .hbm, ⟨92, _⟩ => ⟨S10000x512, .f32⟩
  | .hbm, ⟨93, _⟩ => ⟨S10000x512, .f32⟩
  | .hbm, ⟨94, _⟩ => ⟨S1x64, .f32⟩
  | .hbm, ⟨95, _⟩ => ⟨S10000x64, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S512x512, .f32⟩
  | .local _ .vmem, ⟨9, _⟩ => ⟨S1x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S1000x512, .f32⟩
  | .local _ .vmem, ⟨14, _⟩ => ⟨S512x64, .f32⟩
  | .local _ .vmem, ⟨15, _⟩ => ⟨S1x64, .f32⟩
  | .local _ .vmem, ⟨16, _⟩ => ⟨S1000x64, .f32⟩
  | .local _ .vmem, ⟨17, _⟩ => ⟨S1000x64, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_c_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S_S10000x512 : S_.BroadcastsInDim S10000x512 (![] : Fin 0 → Fin S10000x512.rank)
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  shapeCasts_S64_S1x64 : S64.ShapeCasts S1x64
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  scatter_S10000_S160000x1_S160000_n_0_0_1_wf : ScatterDims.WF S10000 S160000x1 S160000 [] [0] [0] 1
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S1000x512_S512x512_S1000x512_1_0_0_1_n_n_wf : DotDims.WF S1000x512 S512x512 S1000x512 [1] [0] [0] [1] [] []
  dot_S1000x512_S512x64_S1000x64_1_0_0_1_n_n_wf : DotDims.WF S1000x512 S512x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S10000x512.size a
  hwx0_3 : ∀ i : grid0.Coords, EltTy.bits .f32 = 32 ∨ (Rect.block (s := S10000x512) S1000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S10000x512.size a
  hwx1_3 : ∀ i : grid1.Coords, EltTy.bits .f32 = 32 ∨ (Rect.block (s := S10000x512) S1000x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S10000x512.size a
  hwx2_0 : ∀ i : grid2.Coords, EltTy.bits .f32 = 32 ∨ (Rect.block (s := S10000x512) S1000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S512x64.size a
  hwx2_1 : ∀ i : grid2.Coords, EltTy.bits .f32 = 32 ∨ (Rect.block (s := S512x64) S512x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x64.size a ≤ S10000x64.size a
  hwx2_3 : ∀ i : grid2.Coords, EltTy.bits .f32 = 32 ∨ (Rect.block (s := S10000x64) S1000x64.size (cc2_transform_3 i) (hinb2_3 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x64_S1000x64_1_0_0_1_n_n : DotDims S1000x512 S512x64 S1000x64 where
  lhsContracting := [1]
  rhsContracting := [0]
  lhsNonContracting := [0]
  rhsNonContracting := [1]
  lhsBatch := []
  rhsBatch := []
  wf := dot_S1000x512_S512x64_S1000x64_1_0_0_1_n_n_wf

abbrev win0_0 : Pipeline.Window sig grid0 :=
  Pipeline.Window.ofSpec (Memref.whole main_v28) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x512 : Shape := ⟨2, ![10000, 512]⟩
abbrev S160000 : Shape := ⟨1, ![160000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S_ : Shape := ⟨0, ![]⟩
abbrev S10000 : Shape := ⟨1, ![10000]⟩
abbrev S160000x1 : Shape := ⟨2, ![160000, 1]⟩
abbrev S10000x1 : Shape := ⟨2, ![10000, 1]⟩
abbrev S160000x512 : Shape := ⟨2, ![160000, 512]⟩
abbrev S1x512 : Shape := ⟨2, ![1, 512]⟩
abbrev S10000x64 : Shape := ⟨2, ![10000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S160000, .i32⟩
  | .hbm, ⟨2, _⟩ => ⟨S160000, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x64, .f32⟩
  | .hbm, ⟨8, _⟩ => ⟨S64, .f32⟩
  | .hbm, ⟨9, _⟩ => ⟨S_, .f32⟩
  | .hbm, ⟨10, _⟩ => ⟨S160000, .f32⟩
  | .hbm, ⟨11, _⟩ => ⟨S_, .f32⟩
  | .hbm, ⟨12, _⟩ => ⟨S10000, .f32⟩
  | .hbm, ⟨13, _⟩ => ⟨S160000x1, .i32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S160000x1, .i32⟩
  | .hbm, ⟨18, _⟩ => ⟨S10000, .f32⟩
  | .hbm, ⟨19, _⟩ => ⟨S_, .f32⟩
  | .hbm, ⟨20, _⟩ => ⟨S_, .f32⟩
  | .hbm, ⟨21, _⟩ => ⟨S10000, .f32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S_, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000x1, .f32⟩
  | .hbm, ⟨34, _⟩ => ⟨S10000x512, .f32⟩
  | .hbm, ⟨35, _⟩ => ⟨S10000x512, .f32⟩
  | .hbm, ⟨36, _⟩ => ⟨S_, .i32⟩
  | .hbm, ⟨37, _⟩ => ⟨S160000, .i32⟩
  | .hbm, ⟨38, _⟩ => ⟨S160000, .i1⟩
  | .hbm, ⟨39, _⟩ => ⟨S_, .i32⟩
  | .hbm, ⟨40, _⟩ => ⟨S160000, .i32⟩
  | .hbm, ⟨41, _⟩ => ⟨S160000, .i32⟩
  | .hbm, ⟨42, _⟩ => ⟨S160000, .i32⟩
  | .hbm, ⟨43, _⟩ => ⟨S160000x1, .i32⟩
  | .hbm, ⟨44, _⟩ => ⟨S160000x512, .f32⟩
  | .hbm, ⟨45, _⟩ => ⟨S_, .f32⟩
  | .hbm, ⟨46, _⟩ => ⟨S10000x512, .f32⟩
  | .hbm, ⟨47, _⟩ => ⟨S160000x1, .i32⟩
  | .hbm, ⟨48, _⟩ => ⟨S10000x512, .f32⟩
  | .hbm, ⟨49, _⟩ => ⟨S10000x1, .f32⟩
  | .hbm, ⟨50, _⟩ => ⟨S10000x512, .f32⟩
  | .hbm, ⟨51, _⟩ => ⟨S10000x512, .f32⟩
  | .hbm, ⟨52, _⟩ => ⟨S10000x512, .f32⟩
  | .hbm, ⟨53, _⟩ => ⟨S1x512, .f32⟩
  | .hbm, ⟨54, _⟩ => ⟨S10000x512, .f32⟩
  | .hbm, ⟨55, _⟩ => ⟨S10000x512, .f32⟩
  | .hbm, ⟨56, _⟩ => ⟨S_, .f32⟩
  | .hbm, ⟨57, _⟩ => ⟨S10000x512, .f32⟩
  | .hbm, ⟨58, _⟩ => ⟨S10000x512, .f32⟩
  | .hbm, ⟨59, _⟩ => ⟨S10000x1, .f32⟩
  | .hbm, ⟨60, _⟩ => ⟨S10000x512, .f32⟩
  | .hbm, ⟨61, _⟩ => ⟨S10000x512, .f32⟩
  | .hbm, ⟨62, _⟩ => ⟨S_, .i32⟩
  | .hbm, ⟨63, _⟩ => ⟨S160000, .i32⟩
  | .hbm, ⟨64, _⟩ => ⟨S160000, .i1⟩
  | .hbm, ⟨65, _⟩ => ⟨S_, .i32⟩
  | .hbm, ⟨66, _⟩ => ⟨S160000, .i32⟩
  | .hbm, ⟨67, _⟩ => ⟨S160000, .i32⟩
  | .hbm, ⟨68, _⟩ => ⟨S160000, .i32⟩
  | .hbm, ⟨69, _⟩ => ⟨S160000x1, .i32⟩
  | .hbm, ⟨70, _⟩ => ⟨S160000x512, .f32⟩
  | .hbm, ⟨71, _⟩ => ⟨S_, .f32⟩
  | .hbm, ⟨72, _⟩ => ⟨S10000x512, .f32⟩
  | .hbm, ⟨73, _⟩ => ⟨S160000x1, .i32⟩
  | .hbm, ⟨74, _⟩ => ⟨S10000x512, .f32⟩
  | .hbm, ⟨75, _⟩ => ⟨S10000x1, .f32⟩
  | .hbm, ⟨76, _⟩ => ⟨S10000x512, .f32⟩
  | .hbm, ⟨77, _⟩ => ⟨S10000x512, .f32⟩
  | .hbm, ⟨78, _⟩ => ⟨S10000x512, .f32⟩
  | .hbm, ⟨79, _⟩ => ⟨S1x512, .f32⟩
  | .hbm, ⟨80, _⟩ => ⟨S10000x512, .f32⟩
  | .hbm, ⟨81, _⟩ => ⟨S10000x512, .f32⟩
  | .hbm, ⟨82, _⟩ => ⟨S_, .f32⟩
  | .hbm, ⟨83, _⟩ => ⟨S10000x512, .f32⟩
  | .hbm, ⟨84, _⟩ => ⟨S10000x512, .f32⟩
  | .hbm, ⟨85, _⟩ => ⟨S10000x1, .f32⟩
  | .hbm, ⟨86, _⟩ => ⟨S10000x512, .f32⟩
  | .hbm, ⟨87, _⟩ => ⟨S10000x512, .f32⟩
  | .hbm, ⟨88, _⟩ => ⟨S_, .i32⟩
  | .hbm, ⟨89, _⟩ => ⟨S160000, .i32⟩
  | .hbm, ⟨90, _⟩ => ⟨S160000, .i1⟩
  | .hbm, ⟨91, _⟩ => ⟨S_, .i32⟩
  | .hbm, ⟨92, _⟩ => ⟨S160000, .i32⟩
  | .hbm, ⟨93, _⟩ => ⟨S160000, .i32⟩
  | .hbm, ⟨94, _⟩ => ⟨S160000, .i32⟩
  | .hbm, ⟨95, _⟩ => ⟨S160000x1, .i32⟩
  | .hbm, ⟨96, _⟩ => ⟨S160000x512, .f32⟩
  | .hbm, ⟨97, _⟩ => ⟨S_, .f32⟩
  | .hbm, ⟨98, _⟩ => ⟨S10000x512, .f32⟩
  | .hbm, ⟨99, _⟩ => ⟨S160000x1, .i32⟩
  | .hbm, ⟨100, _⟩ => ⟨S10000x512, .f32⟩
  | .hbm, ⟨101, _⟩ => ⟨S10000x1, .f32⟩
  | .hbm, ⟨102, _⟩ => ⟨S10000x512, .f32⟩
  | .hbm, ⟨103, _⟩ => ⟨S10000x512, .f32⟩
  | .hbm, ⟨104, _⟩ => ⟨S10000x64, .f32⟩
  | .hbm, ⟨105, _⟩ => ⟨S1x64, .f32⟩
  | .hbm, ⟨106, _⟩ => ⟨S10000x64, .f32⟩
  | .hbm, ⟨107, _⟩ => ⟨S10000x64, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call3_cst : Ref sig .tc := ⟨.hbm, 82, rfl⟩
abbrev main_call3_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  scatter_S10000_S160000x1_S160000_n_0_0_1_wf : ScatterDims.WF S10000 S160000x1 S160000 [] [0] [0] 1
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x512_S512x512_S10000x512_1_0_0_1_n_n_wf : DotDims.WF S10000x512 S512x512 S10000x512 [1] [0] [0] [1] [] []
  dot_S10000x512_S512x64_S10000x64_1_0_0_1_n_n_wf : DotDims.WF S10000x512 S512x64 S10000x64 [1] [0] [0] [1] [] []

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Spec.lean ====
/-
  One dense layer of the network, as a function of whole arrays, entry by entry.

  For an M × K array x, a K × N array W and a bias b of length N, the layer's value before its activation at
  entry (i, j) is

      (∑ q : Fin K, x (i, q) · W (q, j)) + b j,

  a sum of products over the extended reals followed by one addition, in exactly this order: the order the kernel's
  body and the host's program both use, so no law of the extended reals is needed to join them. The activated layer
  takes the larger of that value and the number the all-zero word denotes.
-/
import proofs.«170434_j18193481466441_1_alg».proof.Proof.LibDotPlain
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Spec

open Idealize.ShloMosaic Idealize.ShloMosaic.ValueIdx

variable {M K N : Nat}

/-- The layer before its activation: row i of x against column j of W, plus the bias at j. -/
def affine (x : FVec Ideal ⟨2, ![M, K]⟩ .f32) (W : FVec Ideal ⟨2, ![K, N]⟩ .f32) (b : Fin N → EReal) :
    FVec Ideal ⟨2, ![M, N]⟩ .f32 :=
  fun i => (∑ q : Fin K, x (ix2 (i 0) q) * W (ix2 q (i 1))) + b (i 1)

/-- The activated layer: the larger of the layer's value and the number the zero word denotes. -/
def affineRelu (x : FVec Ideal ⟨2, ![M, K]⟩ .f32) (W : FVec Ideal ⟨2, ![K, N]⟩ .f32) (b : Fin N → EReal) :
    FVec Ideal ⟨2, ![M, N]⟩ .f32 :=
  fun i => max (affine x W b i) (Ideal.ofBits .f32 0x00000000#32)

theorem affine_ix2 (x : FVec Ideal ⟨2, ![M, K]⟩ .f32) (W : FVec Ideal ⟨2, ![K, N]⟩ .f32) (b : Fin N → EReal)
    (i : Fin M) (j : Fin N) : affine x W b (ix2 i j) = (∑ q : Fin K, x (ix2 i q) * W (ix2 q j)) + b j := rfl

theorem affineRelu_ix2 (x : FVec Ideal ⟨2, ![M, K]⟩ .f32) (W : FVec Ideal ⟨2, ![K, N]⟩ .f32) (b : Fin N → EReal)
    (i : Fin M) (j : Fin N) :
    affineRelu x W b (ix2 i j) = max ((∑ q : Fin K, x (ix2 i q) * W (ix2 q j)) + b j) (Ideal.ofBits .f32 0x00000000#32) := rfl

/-- The layer depends on x only through the rows it reads: if two arrays agree on row block
    [r₀, r₀ + R) then so do the layers computed from them there. Stated for one entry. -/
theorem affine_congr_row {M' : Nat} (x : FVec Ideal ⟨2, ![M, K]⟩ .f32) (x' : FVec Ideal ⟨2, ![M', K]⟩ .f32)
    (W : FVec Ideal ⟨2, ![K, N]⟩ .f32) (b : Fin N → EReal) (i : Fin M) (i' : Fin M') (j : Fin N)
    (h : ∀ q : Fin K, x (ix2 i q) = x' (ix2 i' q)) :
    affine x W b (ix2 i j) = affine x' W b (ix2 i' j) := by
  rw [affine_ix2, affine_ix2]
  exact congrArg (· + b j) (Finset.sum_congr rfl fun q _ => by rw [h q])

end Cert.Spec
-- ==== Proof.KPayload.lean ====
/-
  What the three kernel bodies compute, entry by entry.

  Each body loads a block x of 1000 rows of the layer's input, the whole weight matrix W and the bias as a
  1 × N row, rounds x and W to a narrower format (the identity on the extended reals), multiplies them into an
  all-zero accumulator, adds the bias row to every row of the product and, in the first two layers, takes the larger
  of the result and zero. At entry (p, q) of the block that is the layer function of (x, W, bias) at (p, q): the
  product into the zero accumulator is the plain sum over the contracted axis, a shape cast to the same shape is the
  identity, and the 1 × N row broadcast over the rows reads the row at column q.
-/
import proofs.«170434_j18193481466441_1_alg».proof.Proof.Gen.KernelIdeal.Skeleton
import proofs.«170434_j18193481466441_1_alg».proof.Proof.Spec

noncomputable section

open scoped BigOperators

namespace Cert.KernelIdeal.Layer

open Idealize.ShloMosaic Idealize.ShloMosaic.ValueIdx Cert.KernelIdeal Cert.KernelIdeal.Gen

/-- The 1000 × 512 by 512 × 512 product's dimension numbers are the plain ones. -/
theorem dot512_eq : dot_S1000x512_S512x512_S1000x512_1_0_0_1_n_n = DotDims.plain 1000 512 512 := rfl
/-- The 1000 × 512 by 512 × 64 product's dimension numbers are the plain ones. -/
theorem dot64_eq : dot_S1000x512_S512x64_S1000x64_1_0_0_1_n_n = DotDims.plain 1000 512 64 := rfl

/-- The first layer's body at entry (p, q): the activated layer of its three loaded blocks. -/
theorem pay0_apply (x0 : Vec Ideal S1000x512 .f32) (x1 : Vec Ideal S512x512 .f32) (x2 : Vec Ideal S1x512 .f32)
    (p : Fin 1000) (q : Fin 512) :
    k0_pay1 x0 x1 x2 (ix2 p q) = Cert.Spec.affineRelu x0 x1 (fun j => x2 (ix2 (0 : Fin 1) j)) (ix2 p q) := by
  rw [Cert.Spec.affineRelu_ix2]
  unfold k0_pay1
  show max ((matmul (F := Ideal) _ none (truncf .bf16 (shapeCast _ x0 _) _) (truncf .bf16 x1 _) (constant _ .f32 _) (ix2 p q) : EReal)
      + (broadcastTo _ (shapeCast _ x2 _) _ (ix2 p q) : EReal)) (Ideal.ofBits .f32 0x00000000#32) = _
  rw [shapeCast_self, shapeCast_self, dot512_eq]
  refine congrArg (fun z => max z (Ideal.ofBits .f32 0x00000000#32)) ?_
  refine congrArg₂ (· + ·) ?_ ?_
  · exact Cert.LibDotPlain.matmul_zero_plain 1000 512 512 none _ _ p q
  · exact broadcastTo_1b_ab_apply x2 _ p q

/-- The second layer's body is the first layer's, operation for operation. -/
theorem pay1_apply (x0 : Vec Ideal S1000x512 .f32) (x1 : Vec Ideal S512x512 .f32) (x2 : Vec Ideal S1x512 .f32)
    (p : Fin 1000) (q : Fin 512) :
    k1_pay1 x0 x1 x2 (ix2 p q) = Cert.Spec.affineRelu x0 x1 (fun j => x2 (ix2 (0 : Fin 1) j)) (ix2 p q) :=
  pay0_apply x0 x1 x2 p q

/-- The last layer's body at entry (p, q): the layer of its three loaded blocks, with no activation. -/
theorem pay2_apply (x0 : Vec Ideal S1000x512 .f32) (x1 : Vec Ideal S512x64 .f32) (x2 : Vec Ideal S1x64 .f32)
    (p : Fin 1000) (q : Fin 64) :
    k2_pay1 x0 x1 x2 (ix2 p q) = Cert.Spec.affine x0 x1 (fun j => x2 (ix2 (0 : Fin 1) j)) (ix2 p q) := by
  rw [Cert.Spec.affine_ix2]
  unfold k2_pay1
  show ((matmul (F := Ideal) _ none (truncf .bf16 (shapeCast _ x0 _) _) (truncf .bf16 x1 _) (constant _ .f32 _) (ix2 p q) : EReal)
      + (broadcastTo _ (shapeCast _ x2 _) _ (ix2 p q) : EReal)) = _
  rw [shapeCast_self, shapeCast_self, dot64_eq]
  refine congrArg₂ (· + ·) ?_ ?_
  · exact Cert.LibDotPlain.matmul_zero_plain 1000 512 64 none _ _ p q
  · exact broadcastTo_1b_ab_apply x2 _ p q

end Cert.KernelIdeal.Layer
-- ==== Proof.Region0.lean ====
/-
  The first layer's array after its pallas_call.

  The call runs the layer's body at ten grid points. Point t loads rows 1000·t … 1000·t + 999 of the layer's input,
  the whole weight matrix and the whole bias row, and writes back rows 1000·t … 1000·t + 999 of the result. Entry
  (p, q) of what point t writes is the activated layer of the three loaded blocks at (p, q); the input block's row p
  is the input array's row 1000·t + p, and the other two blocks are their whole arrays, so that entry is the
  activated layer of the three ARRAYS, as the call finds them, at (1000·t + p, q). The ten row blocks cover the
  result array (row r lies in block r / 1000), so after the call the result array is that one function everywhere.
-/
import proofs.«170434_j18193481466441_1_alg».proof.Proof.Gen.KernelIdeal.Frame
import proofs.«170434_j18193481466441_1_alg».proof.Proof.KPayload
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-- Entry (p, q) of a point's result, for a point whose input block's row p is row r of the input array and whose other
    two blocks agree with their arrays where the entry reads them: the activated layer of the arrays at (r, q). -/
theorem block_entry (X : FVec Ideal S10000x512 .f32) (W : FVec Ideal S512x512 .f32) (B : FVec Ideal S1x512 .f32)
    (x0 : Vec Ideal S1000x512 .f32) (x1 : Vec Ideal S512x512 .f32) (x2 : Vec Ideal S1x512 .f32)
    (r : Fin 10000) (p : Fin 1000) (q : Fin 512)
    (h0 : ∀ k : Fin 512, x0 (ix2 p k) = X (ix2 r k))
    (h1 : ∀ k : Fin 512, x1 (ix2 k q) = W (ix2 k q))
    (h2 : x2 (ix2 (0 : Fin 1) q) = B (ix2 (0 : Fin 1) q)) :
    k0_pay1 x0 x1 x2 (ix2 p q) = Cert.Spec.affineRelu X W (fun j => B (ix2 (0 : Fin 1) j)) (ix2 r q) := by
  rw [Cert.KernelIdeal.Layer.pay0_apply, Cert.Spec.affineRelu_ix2, Cert.Spec.affineRelu_ix2, h2]
  exact congrArg (fun z => max (z + B (ix2 (0 : Fin 1) q)) (Ideal.ofBits .f32 0x00000000#32))
    (Finset.sum_congr rfl fun k _ => by rw [h0 k, h1 k])

-- the buffer contents when the call is entered
variable (V : (c : Dev nD) → (b : Ref sig .tc) → Buf (Elt Ideal) ((c : Thread nD τ).loc b))

theorem zeroOff : (![0, 0] : Fin 2 → Nat) = fun _ => 0 := funext fun a => by fin_cases a <;> rfl

/-- What the result array ends holding: the activated layer of the input, the weights and the bias row as the call finds them. -/
abbrev G (c : Dev nD) : S10000x512.Idx → Elt Ideal .f32 :=
  Cert.Spec.affineRelu (V c main_v28) (V c main_arg3) (fun j => V c main_v29 (ix2 (0 : Fin 1) j))

/-- The block indices, decided over the ten points: input and result move together down the rows, point t at row
    block t; the weights' and the bias row's one block is block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_ten (t : Fin cfg0.N) : t.val < 10 := lt_of_lt_of_eq (show t.val < grid0.N from t.isLt) N_0

/-- What point t writes back is block t of G. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero zeroOff]
  simp only [View.ld_unit_zero (S := S1000x512) zeroOff, View.ld_unit_zero (S := S512x512) zeroOff, View.ld_unit_zero (S := S1x512) zeroOff]
  obtain ⟨e0, e1, e2, e3, e4, e5, e6, e7⟩ := idx_facts t
  have ht := lt_ten t
  funext j
  obtain ⟨p, q, rfl⟩ : ∃ (p : Fin 1000) (q : Fin 512), j = ix2 p q := ⟨j 0, j 1, eq_ix2 j⟩
  have hemb : ((cfg0.win 3).blk t).view.emb (ix2 p q) = (ix2 (⟨t.val * 1000 + p.val, by omega⟩ : Fin 10000) q : S10000x512.Idx) := by
    funext a; apply Fin.ext
    match a with
    | ⟨0, _⟩ => show win0_3.index t (0 : Fin 2) * 1000 + 1 * p.val = t.val * 1000 + p.val; omega
    | ⟨1, _⟩ => show win0_3.index t (1 : Fin 2) * 512 + 1 * q.val = q.val; omega
  show k0_pay1 (iblk0 V c 0 t) (iblk0 V c 1 t) (iblk0 V c 2 t) (ix2 p q) = G V c (((cfg0.win 3).blk t).view.emb (ix2 p q))
  rw [hemb]
  refine block_entry (V c main_v28) (V c main_arg3) (V c main_v29) (iblk0 V c 0 t) (iblk0 V c 1 t) (iblk0 V c 2 t)
    ⟨t.val * 1000 + p.val, by omega⟩ p q ?_ ?_ ?_
  · intro k
    show V c main_v28 (((cfg0.win 0).blk t).view.emb (ix2 p k)) = _
    refine congrArg (V c main_v28) (funext fun a => Fin.ext ?_)
    match a with
    | ⟨0, _⟩ => show win0_0.index t (0 : Fin 2) * 1000 + 1 * p.val = t.val * 1000 + p.val; omega
    | ⟨1, _⟩ => show win0_0.index t (1 : Fin 2) * 512 + 1 * k.val = k.val; omega
  · intro k
    show V c main_arg3 (((cfg0.win 1).blk t).view.emb (ix2 k q)) = _
    refine congrArg (V c main_arg3) (funext fun a => Fin.ext ?_)
    match a with
    | ⟨0, _⟩ => show win0_1.index t (0 : Fin 2) * 512 + 1 * k.val = k.val; omega
    | ⟨1, _⟩ => show win0_1.index t (1 : Fin 2) * 512 + 1 * q.val = q.val; omega
  · show V c main_v29 (((cfg0.win 2).blk t).view.emb (ix2 (0 : Fin 1) q)) = _
    refine congrArg (V c main_v29) (funext fun a => Fin.ext ?_)
    match a with
    | ⟨0, _⟩ => show win0_2.index t (0 : Fin 2) * 1 + 1 * 0 = 0; omega
    | ⟨1, _⟩ => show win0_2.index t (1 : Fin 2) * 512 + 1 * q.val = q.val; omega

/-- An index of the result array is in point t's block iff each coordinate is in the block's range on its axis. -/
theorem mem_blk (t : Fin cfg0.N) (i : S10000x512.Idx) :
    i ∈ ((cfg0.win 3).blk t).view.set ↔ ∀ a : Fin 2, win0_3.index t a * S1000x512.size a ≤ (i a).val ∧ (i a).val < win0_3.index t a * S1000x512.size a + S1000x512.size a := by
  show i ∈ ((View.whole main_v30).slice (win0_3.rect t)).set ↔ _
  rw [View.set_slice_whole, Rect.mem_set_unit]
  exact Iff.rfl

/-- Every index of the result array is in some point's block: row r is in row block r / 1000. -/
theorem cover (i : S10000x512.Idx) : ∃ t : Fin cfg0.N, (cfg0.win 3).flush t = true ∧ i ∈ ((cfg0.win 3).blk t).view.set := by
  have hi0 : (i 0).val < 10000 := (i 0).isLt
  have hi1 : (i 1).val < 512 := (i 1).isLt
  obtain ⟨t, ht⟩ : ∃ t : Fin cfg0.N, t.val = (i 0).val / 1000 :=
    ⟨⟨(i 0).val / 1000, by show _ < grid0.N; rw [N_0]; omega⟩, rfl⟩
  obtain ⟨e0, e1, e2, e3, e4, e5, e6, e7⟩ := idx_facts t
  refine ⟨t, flush0_3 t, ?_⟩
  rw [mem_blk]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 512 ≤ (i 1).val ∧ (i 1).val < win0_3.index t (1 : Fin 2) * 512 + 512; omega

/-- The result array after the call is G. -/
theorem final (c : Dev nD) : (dat0 V c).arrAt 3 cfg0.N = G V c :=
  (dat0 V c).arrAt_eq_of_cover 3 (G V c) (fun t _ => flushed_eq V c t) cover

end Cert.KernelIdeal.Region0
-- ==== Proof.Region1.lean ====
/-
  The second layer's array after its pallas_call.

  The call runs the layer's body at ten grid points. Point t loads rows 1000·t … 1000·t + 999 of the layer's input,
  the whole weight matrix and the whole bias row, and writes back rows 1000·t … 1000·t + 999 of the result. Entry
  (p, q) of what point t writes is the activated layer of the three loaded blocks at (p, q); the input block's row p
  is the input array's row 1000·t + p, and the other two blocks are their whole arrays, so that entry is the
  activated layer of the three ARRAYS, as the call finds them, at (1000·t + p, q). The ten row blocks cover the
  result array (row r lies in block r / 1000), so after the call the result array is that one function everywhere.
-/
import proofs.«170434_j18193481466441_1_alg».proof.Proof.Gen.KernelIdeal.Frame
import proofs.«170434_j18193481466441_1_alg».proof.Proof.KPayload
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- Entry (p, q) of a point's result, for a point whose input block's row p is row r of the input array and whose other
    two blocks agree with their arrays where the entry reads them: the activated layer of the arrays at (r, q). -/
theorem block_entry (X : FVec Ideal S10000x512 .f32) (W : FVec Ideal S512x512 .f32) (B : FVec Ideal S1x512 .f32)
    (x0 : Vec Ideal S1000x512 .f32) (x1 : Vec Ideal S512x512 .f32) (x2 : Vec Ideal S1x512 .f32)
    (r : Fin 10000) (p : Fin 1000) (q : Fin 512)
    (h0 : ∀ k : Fin 512, x0 (ix2 p k) = X (ix2 r k))
    (h1 : ∀ k : Fin 512, x1 (ix2 k q) = W (ix2 k q))
    (h2 : x2 (ix2 (0 : Fin 1) q) = B (ix2 (0 : Fin 1) q)) :
    k1_pay1 x0 x1 x2 (ix2 p q) = Cert.Spec.affineRelu X W (fun j => B (ix2 (0 : Fin 1) j)) (ix2 r q) := by
  rw [Cert.KernelIdeal.Layer.pay1_apply, Cert.Spec.affineRelu_ix2, Cert.Spec.affineRelu_ix2, h2]
  exact congrArg (fun z => max (z + B (ix2 (0 : Fin 1) q)) (Ideal.ofBits .f32 0x00000000#32))
    (Finset.sum_congr rfl fun k _ => by rw [h0 k, h1 k])

-- the buffer contents when the call is entered
variable (V : (c : Dev nD) → (b : Ref sig .tc) → Buf (Elt Ideal) ((c : Thread nD τ).loc b))

theorem zeroOff : (![0, 0] : Fin 2 → Nat) = fun _ => 0 := funext fun a => by fin_cases a <;> rfl

/-- What the result array ends holding: the activated layer of the input, the weights and the bias row as the call finds them. -/
abbrev G (c : Dev nD) : S10000x512.Idx → Elt Ideal .f32 :=
  Cert.Spec.affineRelu (V c main_v46) (V c main_arg5) (fun j => V c main_v47 (ix2 (0 : Fin 1) j))

/-- The block indices, decided over the ten points: input and result move together down the rows, point t at row
    block t; the weights' and the bias row's one block is block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt_ten (t : Fin cfg1.N) : t.val < 10 := lt_of_lt_of_eq (show t.val < grid1.N from t.isLt) N_1

/-- What point t writes back is block t of G. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero zeroOff]
  simp only [View.ld_unit_zero (S := S1000x512) zeroOff, View.ld_unit_zero (S := S512x512) zeroOff, View.ld_unit_zero (S := S1x512) zeroOff]
  obtain ⟨e0, e1, e2, e3, e4, e5, e6, e7⟩ := idx_facts t
  have ht := lt_ten t
  funext j
  obtain ⟨p, q, rfl⟩ : ∃ (p : Fin 1000) (q : Fin 512), j = ix2 p q := ⟨j 0, j 1, eq_ix2 j⟩
  have hemb : ((cfg1.win 3).blk t).view.emb (ix2 p q) = (ix2 (⟨t.val * 1000 + p.val, by omega⟩ : Fin 10000) q : S10000x512.Idx) := by
    funext a; apply Fin.ext
    match a with
    | ⟨0, _⟩ => show win1_3.index t (0 : Fin 2) * 1000 + 1 * p.val = t.val * 1000 + p.val; omega
    | ⟨1, _⟩ => show win1_3.index t (1 : Fin 2) * 512 + 1 * q.val = q.val; omega
  show k1_pay1 (iblk1 V c 0 t) (iblk1 V c 1 t) (iblk1 V c 2 t) (ix2 p q) = G V c (((cfg1.win 3).blk t).view.emb (ix2 p q))
  rw [hemb]
  refine block_entry (V c main_v46) (V c main_arg5) (V c main_v47) (iblk1 V c 0 t) (iblk1 V c 1 t) (iblk1 V c 2 t)
    ⟨t.val * 1000 + p.val, by omega⟩ p q ?_ ?_ ?_
  · intro k
    show V c main_v46 (((cfg1.win 0).blk t).view.emb (ix2 p k)) = _
    refine congrArg (V c main_v46) (funext fun a => Fin.ext ?_)
    match a with
    | ⟨0, _⟩ => show win1_0.index t (0 : Fin 2) * 1000 + 1 * p.val = t.val * 1000 + p.val; omega
    | ⟨1, _⟩ => show win1_0.index t (1 : Fin 2) * 512 + 1 * k.val = k.val; omega
  · intro k
    show V c main_arg5 (((cfg1.win 1).blk t).view.emb (ix2 k q)) = _
    refine congrArg (V c main_arg5) (funext fun a => Fin.ext ?_)
    match a with
    | ⟨0, _⟩ => show win1_1.index t (0 : Fin 2) * 512 + 1 * k.val = k.val; omega
    | ⟨1, _⟩ => show win1_1.index t (1 : Fin 2) * 512 + 1 * q.val = q.val; omega
  · show V c main_v47 (((cfg1.win 2).blk t).view.emb (ix2 (0 : Fin 1) q)) = _
    refine congrArg (V c main_v47) (funext fun a => Fin.ext ?_)
    match a with
    | ⟨0, _⟩ => show win1_2.index t (0 : Fin 2) * 1 + 1 * 0 = 0; omega
    | ⟨1, _⟩ => show win1_2.index t (1 : Fin 2) * 512 + 1 * q.val = q.val; omega

/-- An index of the result array is in point t's block iff each coordinate is in the block's range on its axis. -/
theorem mem_blk (t : Fin cfg1.N) (i : S10000x512.Idx) :
    i ∈ ((cfg1.win 3).blk t).view.set ↔ ∀ a : Fin 2, win1_3.index t a * S1000x512.size a ≤ (i a).val ∧ (i a).val < win1_3.index t a * S1000x512.size a + S1000x512.size a := by
  show i ∈ ((View.whole main_v48).slice (win1_3.rect t)).set ↔ _
  rw [View.set_slice_whole, Rect.mem_set_unit]
  exact Iff.rfl

/-- Every index of the result array is in some point's block: row r is in row block r / 1000. -/
theorem cover (i : S10000x512.Idx) : ∃ t : Fin cfg1.N, (cfg1.win 3).flush t = true ∧ i ∈ ((cfg1.win 3).blk t).view.set := by
  have hi0 : (i 0).val < 10000 := (i 0).isLt
  have hi1 : (i 1).val < 512 := (i 1).isLt
  obtain ⟨t, ht⟩ : ∃ t : Fin cfg1.N, t.val = (i 0).val / 1000 :=
    ⟨⟨(i 0).val / 1000, by show _ < grid1.N; rw [N_1]; omega⟩, rfl⟩
  obtain ⟨e0, e1, e2, e3, e4, e5, e6, e7⟩ := idx_facts t
  refine ⟨t, flush1_3 t, ?_⟩
  rw [mem_blk]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 512 ≤ (i 1).val ∧ (i 1).val < win1_3.index t (1 : Fin 2) * 512 + 512; omega

/-- The result array after the call is G. -/
theorem final (c : Dev nD) : (dat1 V c).arrAt 3 cfg1.N = G V c :=
  (dat1 V c).arrAt_eq_of_cover 3 (G V c) (fun t _ => flushed_eq V c t) cover

end Cert.KernelIdeal.Region1
-- ==== Proof.Region2.lean ====
/-
  The last layer's array after its pallas_call.

  The call runs the last layer's body at ten grid points. Point t loads rows 1000·t … 1000·t + 999 of the layer's
  input, the whole 512 × 64 weight matrix and the whole bias row of 64, and writes back rows 1000·t … 1000·t + 999 of
  the 10000 × 64 result. Entry (p, q) of what point t writes is the layer (no activation) of the three loaded blocks
  at (p, q); the input block's row p is the input array's row 1000·t + p and the other two blocks are their whole
  arrays, so that entry is the layer of the three ARRAYS, as the call finds them, at (1000·t + p, q). The ten row
  blocks cover the result array, so after the call the result array is that one function everywhere.
-/
import proofs.«170434_j18193481466441_1_alg».proof.Proof.Gen.KernelIdeal.Frame
import proofs.«170434_j18193481466441_1_alg».proof.Proof.KPayload
import Idealize.ShloMosaic.Lib.Pipeline.Value

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-- Entry (p, q) of a point's result, for a point whose input block's row p is row r of the input array and whose other
    two blocks agree with their arrays where the entry reads them: the layer of the arrays at (r, q). -/
theorem block_entry (X : FVec Ideal S10000x512 .f32) (W : FVec Ideal S512x64 .f32) (B : FVec Ideal S1x64 .f32)
    (x0 : Vec Ideal S1000x512 .f32) (x1 : Vec Ideal S512x64 .f32) (x2 : Vec Ideal S1x64 .f32)
    (r : Fin 10000) (p : Fin 1000) (q : Fin 64)
    (h0 : ∀ k : Fin 512, x0 (ix2 p k) = X (ix2 r k))
    (h1 : ∀ k : Fin 512, x1 (ix2 k q) = W (ix2 k q))
    (h2 : x2 (ix2 (0 : Fin 1) q) = B (ix2 (0 : Fin 1) q)) :
    k2_pay1 x0 x1 x2 (ix2 p q) = Cert.Spec.affine X W (fun j => B (ix2 (0 : Fin 1) j)) (ix2 r q) := by
  rw [Cert.KernelIdeal.Layer.pay2_apply, Cert.Spec.affine_ix2, Cert.Spec.affine_ix2, h2]
  exact congrArg (fun z => z + B (ix2 (0 : Fin 1) q)) (Finset.sum_congr rfl fun k _ => by rw [h0 k, h1 k])

-- the buffer contents when the call is entered
variable (V : (c : Dev nD) → (b : Ref sig .tc) → Buf (Elt Ideal) ((c : Thread nD τ).loc b))

theorem zeroOff : (![0, 0] : Fin 2 → Nat) = fun _ => 0 := funext fun a => by fin_cases a <;> rfl

/-- What the result array ends holding: the layer of the input, the weights and the bias row as the call finds them. -/
abbrev G (c : Dev nD) : S10000x64.Idx → Elt Ideal .f32 :=
  Cert.Spec.affine (V c main_v64) (V c main_arg7) (fun j => V c main_v65 (ix2 (0 : Fin 1) j))

/-- The block indices, decided over the ten points: input and result move together down the rows, point t at row
    block t; the weights' and the bias row's one block is block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt_ten (t : Fin cfg2.N) : t.val < 10 := lt_of_lt_of_eq (show t.val < grid2.N from t.isLt) N_2

/-- What point t writes back is block t of G. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero zeroOff]
  simp only [View.ld_unit_zero (S := S1000x512) zeroOff, View.ld_unit_zero (S := S512x64) zeroOff, View.ld_unit_zero (S := S1x64) zeroOff]
  obtain ⟨e0, e1, e2, e3, e4, e5, e6, e7⟩ := idx_facts t
  have ht := lt_ten t
  funext j
  obtain ⟨p, q, rfl⟩ : ∃ (p : Fin 1000) (q : Fin 64), j = ix2 p q := ⟨j 0, j 1, eq_ix2 j⟩
  have hemb : ((cfg2.win 3).blk t).view.emb (ix2 p q) = (ix2 (⟨t.val * 1000 + p.val, by omega⟩ : Fin 10000) q : S10000x64.Idx) := by
    funext a; apply Fin.ext
    match a with
    | ⟨0, _⟩ => show win2_3.index t (0 : Fin 2) * 1000 + 1 * p.val = t.val * 1000 + p.val; omega
    | ⟨1, _⟩ => show win2_3.index t (1 : Fin 2) * 64 + 1 * q.val = q.val; omega
  show k2_pay1 (iblk2 V c 0 t) (iblk2 V c 1 t) (iblk2 V c 2 t) (ix2 p q) = G V c (((cfg2.win 3).blk t).view.emb (ix2 p q))
  rw [hemb]
  refine block_entry (V c main_v64) (V c main_arg7) (V c main_v65) (iblk2 V c 0 t) (iblk2 V c 1 t) (iblk2 V c 2 t)
    ⟨t.val * 1000 + p.val, by omega⟩ p q ?_ ?_ ?_
  · intro k
    show V c main_v64 (((cfg2.win 0).blk t).view.emb (ix2 p k)) = _
    refine congrArg (V c main_v64) (funext fun a => Fin.ext ?_)
    match a with
    | ⟨0, _⟩ => show win2_0.index t (0 : Fin 2) * 1000 + 1 * p.val = t.val * 1000 + p.val; omega
    | ⟨1, _⟩ => show win2_0.index t (1 : Fin 2) * 512 + 1 * k.val = k.val; omega
  · intro k
    show V c main_arg7 (((cfg2.win 1).blk t).view.emb (ix2 k q)) = _
    refine congrArg (V c main_arg7) (funext fun a => Fin.ext ?_)
    match a with
    | ⟨0, _⟩ => show win2_1.index t (0 : Fin 2) * 512 + 1 * k.val = k.val; omega
    | ⟨1, _⟩ => show win2_1.index t (1 : Fin 2) * 64 + 1 * q.val = q.val; omega
  · show V c main_v65 (((cfg2.win 2).blk t).view.emb (ix2 (0 : Fin 1) q)) = _
    refine congrArg (V c main_v65) (funext fun a => Fin.ext ?_)
    match a with
    | ⟨0, _⟩ => show win2_2.index t (0 : Fin 2) * 1 + 1 * 0 = 0; omega
    | ⟨1, _⟩ => show win2_2.index t (1 : Fin 2) * 64 + 1 * q.val = q.val; omega

/-- An index of the result array is in point t's block iff each coordinate is in the block's range on its axis. -/
theorem mem_blk (t : Fin cfg2.N) (i : S10000x64.Idx) :
    i ∈ ((cfg2.win 3).blk t).view.set ↔ ∀ a : Fin 2, win2_3.index t a * S1000x64.size a ≤ (i a).val ∧ (i a).val < win2_3.index t a * S1000x64.size a + S1000x64.size a := by
  show i ∈ ((View.whole main_v66).slice (win2_3.rect t)).set ↔ _
  rw [View.set_slice_whole, Rect.mem_set_unit]
  exact Iff.rfl

/-- Every index of the result array is in some point's block: row r is in row block r / 1000. -/
theorem cover (i : S10000x64.Idx) : ∃ t : Fin cfg2.N, (cfg2.win 3).flush t = true ∧ i ∈ ((cfg2.win 3).blk t).view.set := by
  have hi0 : (i 0).val < 10000 := (i 0).isLt
  have hi1 : (i 1).val < 64 := (i 1).isLt
  obtain ⟨t, ht⟩ : ∃ t : Fin cfg2.N, t.val = (i 0).val / 1000 :=
    ⟨⟨(i 0).val / 1000, by show _ < grid2.N; rw [N_2]; omega⟩, rfl⟩
  obtain ⟨e0, e1, e2, e3, e4, e5, e6, e7⟩ := idx_facts t
  refine ⟨t, flush2_3 t, ?_⟩
  rw [mem_blk]
  intro a
  match a with
  | ⟨0, _⟩ => show win2_3.index t (0 : Fin 2) * 1000 ≤ (i 0).val ∧ (i 0).val < win2_3.index t (0 : Fin 2) * 1000 + 1000; omega
  | ⟨1, _⟩ => show win2_3.index t (1 : Fin 2) * 64 ≤ (i 1).val ∧ (i 1).val < win2_3.index t (1 : Fin 2) * 64 + 64; omega

/-- The result array after the call is G. -/
theorem final (c : Dev nD) : (dat2 V c).arrAt 3 cfg2.N = G V c :=
  (dat2 V c).arrAt_eq_of_cover 3 (G V c) (fun t _ => flushed_eq V c t) cover

end Cert.KernelIdeal.Region2
-- ==== Proof.Model.lean ====
/-
  The network as one function of its nine inputs.

  A node's out-degree (the number of edges whose source it is) and in-degree (the number whose destination it is) are
  counted by adding a one per edge; each is clamped below at one and raised to the power -1/2. One round of
  neighbour aggregation scales row v of the features by the source-side factor of v, copies for every edge the scaled
  row of the edge's source (a negative source index first moved up by the number of nodes), adds those copies into the
  rows of the edges' destinations, and scales row v of the sums by the destination-side factor of v. The network is
  three rounds, each followed by a dense layer (Spec.lean): the first two activated, the last not. Its two results are
  the last layer's value and the second layer's.

  The counting, the power, the copying and the adding-up are kept as the host's own operations: both programs apply
  the very same ones, so nothing about them is ever opened.
-/
import proofs.«170434_j18193481466441_1_alg».proof.KernelIdeal
import proofs.«170434_j18193481466441_1_alg».proof.Proof.Gen.KernelIdeal
import proofs.«170434_j18193481466441_1_alg».proof.Proof.Spec

noncomputable section

namespace Cert.Model

open Idealize.ShloMosaic Idealize.ShloMosaic.ValueIdx Cert.KernelIdeal Cert.KernelIdeal.Facts₀

/-- The degree factor of every node, from the edges' end points `idx` (sources or destinations):
    (max 1 (number of edges with that end point)) ^ (-1/2). -/
def norm (idx : IVec S160000 32) : FVec Ideal S10000 .f32 :=
  Host.powf
    (maximumf (broadcastInDim S10000 ![] bcast_S_S10000 (id (constant S_ .f32 0x3F800000#32)))
      (Host.scatterAdd scatter_S10000_S160000x1_S160000_n_0_0_1
        (broadcastInDim S10000 ![] bcast_S_S10000 (constant S_ .f32 0x00000000#32))
        (broadcastInDim S160000x1 ![0] bcast_S160000_S160000x1_0 idx)
        (broadcastInDim S160000 ![] bcast_S_S160000 (constant S_ .f32 0x3F800000#32))))
    (broadcastInDim S10000 ![] bcast_S_S10000 (constant S_ .f32 0xBF000000#32))

/-- One round of neighbour aggregation of the node features `h` along the edges `src → dst`. -/
def agg (h : FVec Ideal S10000x512 .f32) (src dst : IVec S160000 32) : FVec Ideal S10000x512 .f32 :=
  mulf
    (Host.scatterAdd scatter_S10000x512_S160000x1_S160000x512_1_0_0_1
      (broadcastInDim S10000x512 ![] bcast_S_S10000x512 (constant S_ .f32 0x00000000#32))
      (broadcastInDim S160000x1 ![0] bcast_S160000_S160000x1_0 dst)
      (Host.gather gather_S10000x512_S160000x1_S160000x512_1_0_n_n_0_1_1512
        (mulf h (broadcastInDim S10000x512 ![0, 1] bcast_S10000x1_S10000x512_0_1
          (broadcastInDim S10000x1 ![0] bcast_S10000_S10000x1_0 (norm src))))
        (broadcastInDim S160000x1 ![0] bcast_S160000_S160000x1_0
          (select (cmpi .slt src (broadcastInDim S160000 ![] bcast_S_S160000 (constantI S_ 32 0#32)))
            (addi src (broadcastInDim S160000 ![] bcast_S_S160000 (constantI S_ 32 10000#32))) src))))
    (broadcastInDim S10000x512 ![0, 1] bcast_S10000x1_S10000x512_0_1
      (broadcastInDim S10000x1 ![0] bcast_S10000_S10000x1_0 (norm dst)))

/-- A bias vector as a function of the column. -/
abbrev bias {n : Nat} (b : FVec Ideal ⟨1, ![n]⟩ .f32) : Fin n → EReal := fun j => b (ix1 j)

/-- The first hidden layer. -/
def hidden1 (feat : FVec Ideal S10000x512 .f32) (src dst : IVec S160000 32) (W0 : FVec Ideal S512x512 .f32)
    (b0 : FVec Ideal S512 .f32) : FVec Ideal S10000x512 .f32 :=
  Cert.Spec.affineRelu (agg feat src dst) W0 (bias b0)

/-- The second hidden layer: the network's second result. -/
def hidden2 (feat : FVec Ideal S10000x512 .f32) (src dst : IVec S160000 32) (W0 : FVec Ideal S512x512 .f32)
    (b0 : FVec Ideal S512 .f32) (W1 : FVec Ideal S512x512 .f32) (b1 : FVec Ideal S512 .f32) : FVec Ideal S10000x512 .f32 :=
  Cert.Spec.affineRelu (agg (hidden1 feat src dst W0 b0) src dst) W1 (bias b1)

/-- The output layer: the network's first result. -/
def output (feat : FVec Ideal S10000x512 .f32) (src dst : IVec S160000 32) (W0 : FVec Ideal S512x512 .f32)
    (b0 : FVec Ideal S512 .f32) (W1 : FVec Ideal S512x512 .f32) (b1 : FVec Ideal S512 .f32)
    (W2 : FVec Ideal S512x64 .f32) (b2 : FVec Ideal S64 .f32) : FVec Ideal S10000x64 .f32 :=
  Cert.Spec.affine (agg (hidden2 feat src dst W0 b0 W1 b1) src dst) W2 (bias b2)

end Cert.Model
-- ==== Proof.Walk.lean ====
/-
  The two result arrays of the kernel's program, as the network's function of the nine inputs.

  The program's @main is host operations, the first layer's pallas_call, host operations, the second layer's call,
  host operations, the last layer's call. The buffer contents at each boundary are a fold through those segments.
  Read through the fold:
    · before the first call the host has computed the two degree factors, one round of aggregation of the input
      features and the bias as a row; the call leaves the first hidden layer in its result array;
    · between the calls the host aggregates that layer again (the degree factors, the edges and the remaining
      weights are untouched by a call: none of them is among its arrays); the second call leaves the second hidden layer;
    · the same once more, and the last call leaves the output layer.
  Each host stretch is read off operation by operation, each call's result array by the region's value (Region0/1/2),
  and the two are joined by rewriting the buffers a stretch reads with what the previous boundary holds there.
-/
import proofs.«170434_j18193481466441_1_alg».proof.Proof.Gen.KernelIdeal.Frame
import proofs.«170434_j18193481466441_1_alg».proof.Proof.Region0
import proofs.«170434_j18193481466441_1_alg».proof.Proof.Region1
import proofs.«170434_j18193481466441_1_alg».proof.Proof.Region2
import proofs.«170434_j18193481466441_1_alg».proof.Proof.Model
import Idealize.ShloMosaic.Lib.StableHlo.Run
import Idealize.ShloMosaic.Lib.ValueLayout

set_option maxRecDepth 16384

noncomputable section

namespace Cert.KernelIdeal.Walk

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg) (c : Dev nD)

/-! ## The nine inputs, at their array types -/

abbrev feat : FVec Ideal S10000x512 .f32 := m ((c : Thread nD τ).loc main_arg0)
abbrev src : IVec S160000 32 := m ((c : Thread nD τ).loc main_arg1)
abbrev dst : IVec S160000 32 := m ((c : Thread nD τ).loc main_arg2)
abbrev wt0 : FVec Ideal S512x512 .f32 := m ((c : Thread nD τ).loc main_arg3)
abbrev bs0 : FVec Ideal S512 .f32 := m ((c : Thread nD τ).loc main_arg4)
abbrev wt1 : FVec Ideal S512x512 .f32 := m ((c : Thread nD τ).loc main_arg5)
abbrev bs1 : FVec Ideal S512 .f32 := m ((c : Thread nD τ).loc main_arg6)
abbrev wt2 : FVec Ideal S512x64 .f32 := m ((c : Thread nD τ).loc main_arg7)
abbrev bs2 : FVec Ideal S64 .f32 := m ((c : Thread nD τ).loc main_arg8)

/-- The three layers at these inputs. -/
abbrev hid1 : FVec Ideal S10000x512 .f32 := Cert.Model.hidden1 (feat m c) (src m c) (dst m c) (wt0 m c) (bs0 m c)
abbrev hid2 : FVec Ideal S10000x512 .f32 :=
  Cert.Model.hidden2 (feat m c) (src m c) (dst m c) (wt0 m c) (bs0 m c) (wt1 m c) (bs1 m c)
abbrev outp : FVec Ideal S10000x64 .f32 :=
  Cert.Model.output (feat m c) (src m c) (dst m c) (wt0 m c) (bs0 m c) (wt1 m c) (bs1 m c) (wt2 m c) (bs2 m c)

/-- Reads a buffer after a literal stretch of host operations, operation by operation, and drops the identity
    transports between a called function's typed references and their buffers. -/
local macro "stretch" : tactic => `(tactic| (after_results; try simp only [TRef.toBuf, TRef.ofBuf, cast_eq]))
/-- The same by one simplification pass, for a buffer many operations feed. -/
local macro "stretch_long" : tactic => `(tactic| (after_results_simp; try simp only [TRef.toBuf, TRef.ofBuf, cast_eq]))
/-- Opens the five stretches before the first call down to the launch memory. -/
local macro "from_launch" : tactic =>
  `(tactic| simp only [W5, W4, W3, W2, W1, hostOps0, hostOps0_1, hostOps0_2, hostOps0_3, hostOps0_4])

/-! ## Before the first call -/

theorem W5_v9 : (W5 m ρ c (Proc.devRef .tc main_v9) : FVec Ideal S10000 .f32) = Cert.Model.norm (src m c) := by
  from_launch; stretch; rfl
theorem W5_v12 : (W5 m ρ c (Proc.devRef .tc main_v12) : FVec Ideal S10000 .f32) = Cert.Model.norm (dst m c) := by
  from_launch; stretch; rfl
set_option maxHeartbeats 4000000 in
theorem W5_v28 : (W5 m ρ c (Proc.devRef .tc main_v28) : FVec Ideal S10000x512 .f32)
    = Cert.Model.agg (feat m c) (src m c) (dst m c) := by
  from_launch; stretch_long; rfl
theorem W5_v29 (j : Fin 512) : (W5 m ρ c (Proc.devRef .tc main_v29) : FVec Ideal S1x512 .f32) (ix2 (0 : Fin 1) j) = bs0 m c (ix1 j) := by
  from_launch; stretch
  exact shapeCast_a_1a_apply (bs0 m c) _ 0 j
theorem W5_arg1 : W5 m ρ c (Proc.devRef .tc main_arg1) = src m c := by from_launch; stretch
theorem W5_arg2 : W5 m ρ c (Proc.devRef .tc main_arg2) = dst m c := by from_launch; stretch
theorem W5_arg3 : W5 m ρ c (Proc.devRef .tc main_arg3) = wt0 m c := by from_launch; stretch
theorem W5_arg5 : W5 m ρ c (Proc.devRef .tc main_arg5) = wt1 m c := by from_launch; stretch
theorem W5_arg6 : W5 m ρ c (Proc.devRef .tc main_arg6) = bs1 m c := by from_launch; stretch
theorem W5_arg7 : W5 m ρ c (Proc.devRef .tc main_arg7) = wt2 m c := by from_launch; stretch
theorem W5_arg8 : W5 m ρ c (Proc.devRef .tc main_arg8) = bs2 m c := by from_launch; stretch

/-! ## After the first call -/

theorem W6_v30 : (W6 m ρ c (Proc.devRef .tc main_v30) : FVec Ideal S10000x512 .f32) = hid1 m c := by
  refine ((W6_arr m ρ c 3).trans (Cert.KernelIdeal.Region0.final (V5 m ρ) c)).trans ?_
  show Cert.Spec.affineRelu (W5 m ρ c (Proc.devRef .tc main_v28) : FVec Ideal S10000x512 .f32) (W5 m ρ c (Proc.devRef .tc main_arg3))
      (fun j => (W5 m ρ c (Proc.devRef .tc main_v29) : FVec Ideal S1x512 .f32) (ix2 (0 : Fin 1) j)) = _
  rw [W5_v28, W5_arg3]
  exact congrArg (Cert.Spec.affineRelu _ _) (funext fun j => W5_v29 m ρ c j)
theorem W6_v9 : (W6 m ρ c (Proc.devRef .tc main_v9) : FVec Ideal S10000 .f32) = Cert.Model.norm (src m c) :=
  (W6_of_ne m ρ c main_v9 (by decide)).trans (W5_v9 m ρ c)
theorem W6_v12 : (W6 m ρ c (Proc.devRef .tc main_v12) : FVec Ideal S10000 .f32) = Cert.Model.norm (dst m c) :=
  (W6_of_ne m ρ c main_v12 (by decide)).trans (W5_v12 m ρ c)
theorem W6_arg1 : W6 m ρ c (Proc.devRef .tc main_arg1) = src m c := (W6_of_ne m ρ c main_arg1 (by decide)).trans (W5_arg1 m ρ c)
theorem W6_arg2 : W6 m ρ c (Proc.devRef .tc main_arg2) = dst m c := (W6_of_ne m ρ c main_arg2 (by decide)).trans (W5_arg2 m ρ c)
theorem W6_arg5 : W6 m ρ c (Proc.devRef .tc main_arg5) = wt1 m c := (W6_of_ne m ρ c main_arg5 (by decide)).trans (W5_arg5 m ρ c)
theorem W6_arg6 : W6 m ρ c (Proc.devRef .tc main_arg6) = bs1 m c := (W6_of_ne m ρ c main_arg6 (by decide)).trans (W5_arg6 m ρ c)
theorem W6_arg7 : W6 m ρ c (Proc.devRef .tc main_arg7) = wt2 m c := (W6_of_ne m ρ c main_arg7 (by decide)).trans (W5_arg7 m ρ c)
theorem W6_arg8 : W6 m ρ c (Proc.devRef .tc main_arg8) = bs2 m c := (W6_of_ne m ρ c main_arg8 (by decide)).trans (W5_arg8 m ρ c)

/-! ## Before the second call -/

set_option maxHeartbeats 4000000 in
theorem W7_v46 : (W7 m ρ c (Proc.devRef .tc main_v46) : FVec Ideal S10000x512 .f32)
    = Cert.Model.agg (hid1 m c) (src m c) (dst m c) := by
  simp only [W7, hostOps1]; stretch_long
  rw [W6_v30, W6_v9, W6_v12, W6_arg1, W6_arg2]
  rfl
theorem W7_v47 (j : Fin 512) : (W7 m ρ c (Proc.devRef .tc main_v47) : FVec Ideal S1x512 .f32) (ix2 (0 : Fin 1) j) = bs1 m c (ix1 j) := by
  simp only [W7, hostOps1]; stretch
  rw [W6_arg6]
  exact shapeCast_a_1a_apply (bs1 m c) _ 0 j
theorem W7_arg5 : W7 m ρ c (Proc.devRef .tc main_arg5) = wt1 m c := by simp only [W7, hostOps1]; stretch; exact W6_arg5 m ρ c
theorem W7_v9 : (W7 m ρ c (Proc.devRef .tc main_v9) : FVec Ideal S10000 .f32) = Cert.Model.norm (src m c) := by
  simp only [W7, hostOps1]; stretch; exact W6_v9 m ρ c
theorem W7_v12 : (W7 m ρ c (Proc.devRef .tc main_v12) : FVec Ideal S10000 .f32) = Cert.Model.norm (dst m c) := by
  simp only [W7, hostOps1]; stretch; exact W6_v12 m ρ c
theorem W7_arg1 : W7 m ρ c (Proc.devRef .tc main_arg1) = src m c := by simp only [W7, hostOps1]; stretch; exact W6_arg1 m ρ c
theorem W7_arg2 : W7 m ρ c (Proc.devRef .tc main_arg2) = dst m c := by simp only [W7, hostOps1]; stretch; exact W6_arg2 m ρ c
theorem W7_arg7 : W7 m ρ c (Proc.devRef .tc main_arg7) = wt2 m c := by simp only [W7, hostOps1]; stretch; exact W6_arg7 m ρ c
theorem W7_arg8 : W7 m ρ c (Proc.devRef .tc main_arg8) = bs2 m c := by simp only [W7, hostOps1]; stretch; exact W6_arg8 m ρ c

/-! ## After the second call -/

theorem W8_v48 : (W8 m ρ c (Proc.devRef .tc main_v48) : FVec Ideal S10000x512 .f32) = hid2 m c := by
  refine ((W8_arr m ρ c 3).trans (Cert.KernelIdeal.Region1.final (V7 m ρ) c)).trans ?_
  show Cert.Spec.affineRelu (W7 m ρ c (Proc.devRef .tc main_v46) : FVec Ideal S10000x512 .f32) (W7 m ρ c (Proc.devRef .tc main_arg5))
      (fun j => (W7 m ρ c (Proc.devRef .tc main_v47) : FVec Ideal S1x512 .f32) (ix2 (0 : Fin 1) j)) = _
  rw [W7_v46, W7_arg5]
  exact congrArg (Cert.Spec.affineRelu _ _) (funext fun j => W7_v47 m ρ c j)
theorem W8_v9 : (W8 m ρ c (Proc.devRef .tc main_v9) : FVec Ideal S10000 .f32) = Cert.Model.norm (src m c) :=
  (W8_of_ne m ρ c main_v9 (by decide)).trans (W7_v9 m ρ c)
theorem W8_v12 : (W8 m ρ c (Proc.devRef .tc main_v12) : FVec Ideal S10000 .f32) = Cert.Model.norm (dst m c) :=
  (W8_of_ne m ρ c main_v12 (by decide)).trans (W7_v12 m ρ c)
theorem W8_arg1 : W8 m ρ c (Proc.devRef .tc main_arg1) = src m c := (W8_of_ne m ρ c main_arg1 (by decide)).trans (W7_arg1 m ρ c)
theorem W8_arg2 : W8 m ρ c (Proc.devRef .tc main_arg2) = dst m c := (W8_of_ne m ρ c main_arg2 (by decide)).trans (W7_arg2 m ρ c)
theorem W8_arg7 : W8 m ρ c (Proc.devRef .tc main_arg7) = wt2 m c := (W8_of_ne m ρ c main_arg7 (by decide)).trans (W7_arg7 m ρ c)
theorem W8_arg8 : W8 m ρ c (Proc.devRef .tc main_arg8) = bs2 m c := (W8_of_ne m ρ c main_arg8 (by decide)).trans (W7_arg8 m ρ c)

/-! ## Before the last call -/

set_option maxHeartbeats 4000000 in
theorem W9_v64 : (W9 m ρ c (Proc.devRef .tc main_v64) : FVec Ideal S10000x512 .f32)
    = Cert.Model.agg (hid2 m c) (src m c) (dst m c) := by
  simp only [W9, hostOps2]; stretch_long
  rw [W8_v48, W8_v9, W8_v12, W8_arg1, W8_arg2]
  rfl
theorem W9_v65 (j : Fin 64) : (W9 m ρ c (Proc.devRef .tc main_v65) : FVec Ideal S1x64 .f32) (ix2 (0 : Fin 1) j) = bs2 m c (ix1 j) := by
  simp only [W9, hostOps2]; stretch
  rw [W8_arg8]
  exact shapeCast_a_1a_apply (bs2 m c) _ 0 j
theorem W9_arg7 : W9 m ρ c (Proc.devRef .tc main_arg7) = wt2 m c := by simp only [W9, hostOps2]; stretch; exact W8_arg7 m ρ c
theorem W9_v48 : (W9 m ρ c (Proc.devRef .tc main_v48) : FVec Ideal S10000x512 .f32) = hid2 m c := by
  simp only [W9, hostOps2]; stretch; exact W8_v48 m ρ c

/-! ## After the last call: the two results -/

/-- The first result: the output layer. -/
theorem W10_v66 : (W10 m ρ c (Proc.devRef .tc main_v66) : FVec Ideal S10000x64 .f32) = outp m c := by
  refine ((W10_arr m ρ c 3).trans (Cert.KernelIdeal.Region2.final (V9 m ρ) c)).trans ?_
  show Cert.Spec.affine (W9 m ρ c (Proc.devRef .tc main_v64) : FVec Ideal S10000x512 .f32) (W9 m ρ c (Proc.devRef .tc main_arg7))
      (fun j => (W9 m ρ c (Proc.devRef .tc main_v65) : FVec Ideal S1x64 .f32) (ix2 (0 : Fin 1) j)) = _
  rw [W9_v64, W9_arg7]
  exact congrArg (Cert.Spec.affine _ _) (funext fun j => W9_v65 m ρ c j)

/-- The second result: the second hidden layer, which the last call does not touch. -/
theorem W10_v48 : (W10 m ρ c (Proc.devRef .tc main_v48) : FVec Ideal S10000x512 .f32) = hid2 m c :=
  (W10_of_ne m ρ c main_v48 (by decide)).trans (W9_v48 m ρ c)

end Cert.KernelIdeal.Walk
-- ==== Proof.HostLayer.lean ====
/-
  The host's dense layer is the layer function.

  On the host a dense layer is three operations: the product of the M × K input with the K × N weights, the bias
  (length N) laid out as a 1 × N row and that row repeated over the M rows, and their sum; an activated layer then
  takes the entrywise larger of that sum and an all-zero array. Read at entry (i, j): the product is the plain sum
  over the contracted axis, the repeated row reads the bias at j, and the zero array reads the number the zero word
  denotes. So the three (or four) operations are the layer function of Spec.lean, the sum and the addition in the same
  order.
-/
import proofs.«170434_j18193481466441_1_alg».proof.Proof.Spec

noncomputable section

open scoped BigOperators

namespace Cert.Spec

open Idealize.ShloMosaic Idealize.ShloMosaic.ValueIdx

variable {M K N : Nat}

/-- A bias of length N laid out as a 1 × N row and repeated over M rows reads, at (p, q), the bias at q. -/
theorem biasRows_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The host's product plus the repeated bias row is the layer before its activation. -/
theorem hostAffine (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W) (broadcastInDim ⟨2, ![M, N]⟩ ![0, 1] h2 (broadcastInDim ⟨2, ![1, N]⟩ ![1] h1 b))
      = affine X W (fun j => b (ix1 j)) := by
  subst hd
  funext i
  obtain ⟨p, q, rfl⟩ : ∃ (p : Fin M) (q : Fin N), i = ix2 p q := ⟨i 0, i 1, eq_ix2 i⟩
  rw [affine_ix2, addf_apply, biasRows_apply]
  exact congrArg (· + b (ix1 q)) (Cert.LibDotPlain.dotGeneral_plain M K N none .single X W p q)

/-- The same followed by the entrywise maximum with the all-zero array is the activated layer. -/
theorem hostAffineRelu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (Host.dotGeneral d none X W) (broadcastInDim ⟨2, ![M, N]⟩ ![0, 1] h2 (broadcastInDim ⟨2, ![1, N]⟩ ![1] h1 b)))
        (broadcastInDim ⟨2, ![M, N]⟩ ![] h0 (constant ⟨0, ![]⟩ .f32 0x00000000#32))
      = affineRelu X W (fun j => b (ix1 j)) := by
  rw [hostAffine d hd X W b h1 h2]
  funext i
  show max (affine X W (fun j => b (ix1 j)) i) (broadcastInDim ⟨2, ![M, N]⟩ ![] h0 (constant (F := Ideal) ⟨0, ![]⟩ .f32 0x00000000#32) i) = _
  rw [broadcastInDim_apply ![] h0 _ i ix0 (fun a => a.elim0)]
  rfl

end Cert.Spec
-- ==== Proof.RefValue.lean ====
/-
  The reference's two results are the network's function of the nine inputs.

  The reference's run ends with each result at the composed term of its host operations. In that term every dense
  layer is a product, a repeated bias row, a sum and (for the two hidden layers) a maximum with zeros: the layer
  function (HostLayer.lean). What remains around the layers is the degree factors and the three rounds of aggregation,
  spelt with the very operations the network's definition uses, so the two sides are then the same term.
-/
import proofs.«170434_j18193481466441_1_alg».proof.Proof.Gen.ReferenceIdeal.Run
import proofs.«170434_j18193481466441_1_alg».proof.Proof.Model
import proofs.«170434_j18193481466441_1_alg».proof.Proof.HostLayer

set_option maxRecDepth 16384

noncomputable section

namespace Cert.ReferenceIdeal.RefValue

open Cert.ReferenceIdeal Idealize.ShloMosaic Idealize.ShloMosaic.TcCoe Idealize.SL.Sem Idealize.ShloMosaic.ValueIdx

/-- The 10000 × 512 by 512 × 512 product's dimension numbers are the plain ones. -/
theorem dot512_eq : dot_S10000x512_S512x512_S10000x512_1_0_0_1_n_n = DotDims.plain 10000 512 512 := rfl
/-- The 10000 × 512 by 512 × 64 product's dimension numbers are the plain ones. -/
theorem dot64_eq : dot_S10000x512_S512x64_S10000x64_1_0_0_1_n_n = DotDims.plain 10000 512 64 := rfl

variable (m : (ℓ : Loc nD τ sig) → Buf (Elt Ideal) ℓ) (c : Dev nD)

abbrev feat : FVec Ideal S10000x512 .f32 := m ((c.tc : Thread nD τ).loc main_arg0)
abbrev src : IVec S160000 32 := m ((c.tc : Thread nD τ).loc main_arg1)
abbrev dst : IVec S160000 32 := m ((c.tc : Thread nD τ).loc main_arg2)
abbrev wt0 : FVec Ideal S512x512 .f32 := m ((c.tc : Thread nD τ).loc main_arg3)
abbrev bs0 : FVec Ideal S512 .f32 := m ((c.tc : Thread nD τ).loc main_arg4)
abbrev wt1 : FVec Ideal S512x512 .f32 := m ((c.tc : Thread nD τ).loc main_arg5)
abbrev bs1 : FVec Ideal S512 .f32 := m ((c.tc : Thread nD τ).loc main_arg6)
abbrev wt2 : FVec Ideal S512x64 .f32 := m ((c.tc : Thread nD τ).loc main_arg7)
abbrev bs2 : FVec Ideal S64 .f32 := m ((c.tc : Thread nD τ).loc main_arg8)

/-- The reference's second result is the second hidden layer. -/
theorem second : (Value.res_main_v54 m c : FVec Ideal S10000x512 .f32)
    = Cert.Model.hidden2 (feat m c) (src m c) (dst m c) (wt0 m c) (bs0 m c) (wt1 m c) (bs1 m c) := by
  unfold Value.res_main_v54
  simp only [Cert.Spec.hostAffineRelu _ dot512_eq]
  rfl

/-- The reference's first result is the output layer. -/
theorem first : (Value.res_main_v74 m c : FVec Ideal S10000x64 .f32)
    = Cert.Model.output (feat m c) (src m c) (dst m c) (wt0 m c) (bs0 m c) (wt1 m c) (bs1 m c) (wt2 m c) (bs2 m c) := by
  unfold Value.res_main_v74
  simp only [Cert.Spec.hostAffineRelu _ dot512_eq, Cert.Spec.hostAffine _ dot64_eq]
  rfl

end Cert.ReferenceIdeal.RefValue
-- ==== Proof.lean ====
/-
  A three-layer graph convolution network: the kernel's program against its reference, over the extended reals.

  Both programs compute, from node features, an edge list (sources and destinations) and three weight matrices with
  their biases, the same thing: two degree factors per node, (max 1 degree)^(-1/2) for the out- and the in-degree, and
  three rounds of "scale by the source factor, gather along the edges, add up at the destinations, scale by the
  destination factor" (Model.lean), each followed by a dense layer x·W + b, the first two with a maximum against zero
  (Spec.lean). They differ only in how a dense layer is computed. The reference computes it on the host as one product
  of the whole 10000-row array, a repeated bias row, a sum and a maximum (HostLayer.lean, RefValue.lean). The kernel's
  program hands it to a pallas_call that walks the rows in ten blocks of 1000; each block's body rounds its operands
  to a narrower format (the identity over the extended reals), multiplies into a zero accumulator, adds the bias row
  and takes the maximum (KPayload.lean), and the ten written-back blocks tile the result (Region0/1/2.lean). Entry by
  entry both are (∑ q, x(i, q)·W(q, j)) + b(j), the sum and the addition in the same order, so no law of the extended
  reals is used and the inputs' finiteness is never opened. Everything around the layers is the same host operations
  on both sides and is carried along unopened (Walk.lean reads the kernel program's buffers boundary by boundary).

  The three frames: the kernel's two programs by their generated frame certificates, the reference's by its generated
  run with the results dropped. The idealization rewrote nothing, so `preserves` is trivial.
-/
import proofs.«170434_j18193481466441_1_alg».proof.Defs
import proofs.«170434_j18193481466441_1_alg».proof.Proof.Gen.Kernel
import proofs.«170434_j18193481466441_1_alg».proof.Proof.Gen.Kernel.Skeleton
import proofs.«170434_j18193481466441_1_alg».proof.Proof.Gen.Kernel.Launch
import proofs.«170434_j18193481466441_1_alg».proof.Proof.Gen.Kernel.Points
import proofs.«170434_j18193481466441_1_alg».proof.Proof.Gen.Kernel.Frame
import proofs.«170434_j18193481466441_1_alg».proof.Proof.Gen.KernelIdeal
import proofs.«170434_j18193481466441_1_alg».proof.Proof.Gen.KernelIdeal.Skeleton
import proofs.«170434_j18193481466441_1_alg».proof.Proof.Gen.KernelIdeal.Launch
import proofs.«170434_j18193481466441_1_alg».proof.Proof.Gen.KernelIdeal.Points
import proofs.«170434_j18193481466441_1_alg».proof.Proof.Gen.KernelIdeal.Frame
import proofs.«170434_j18193481466441_1_alg».proof.Proof.Gen.ReferenceIdeal
import proofs.«170434_j18193481466441_1_alg».proof.Proof.Gen.Pre_finite_inputs
import proofs.«170434_j18193481466441_1_alg».proof.Proof.Gen.ReferenceIdeal.Run
import proofs.«170434_j18193481466441_1_alg».proof.Proof.KRun
import proofs.«170434_j18193481466441_1_alg».proof.Proof.Walk
import proofs.«170434_j18193481466441_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the output layer and the second hidden layer of the network at the shared inputs. -/
theorem algebraic : Cert.algebraic_KernelIdeal_ReferenceIdeal := by
  intro m ρ m' ρ' _ hagree
  refine ⟨fun c => Cert.KernelIdeal.Walk.outp m c, fun c => Cert.KernelIdeal.Walk.hid2 m c, ?_, ?_⟩
  · exact (θ_run Cert.KernelIdeal.defs _ _).mono
      (fun r h c => ⟨(h c).1.trans (Cert.KernelIdeal.Walk.W10_v66 m ρ c), (h c).2.1.trans (Cert.KernelIdeal.Walk.W10_v48 m ρ c), (h c).2.2⟩)
      (Cert.KernelIdeal.ValueRun.run (F := Ideal) m ρ)
  · refine (θ_run Cert.ReferenceIdeal.defs _ _).mono (fun r h c => ?_) (Cert.ReferenceIdeal.Value.run (F := Ideal) m' ρ')
    obtain ⟨a0, a1, a2, a3, a4, a5, a6, a7, a8⟩ := hagree c
    have e0 : Cert.ReferenceIdeal.RefValue.feat m' c = Cert.KernelIdeal.Walk.feat m c := a0
    have e1 : Cert.ReferenceIdeal.RefValue.src m' c = Cert.KernelIdeal.Walk.src m c := a1
    have e2 : Cert.ReferenceIdeal.RefValue.dst m' c = Cert.KernelIdeal.Walk.dst m c := a2
    have e3 : Cert.ReferenceIdeal.RefValue.wt0 m' c = Cert.KernelIdeal.Walk.wt0 m c := a3
    have e4 : Cert.ReferenceIdeal.RefValue.bs0 m' c = Cert.KernelIdeal.Walk.bs0 m c := a4
    have e5 : Cert.ReferenceIdeal.RefValue.wt1 m' c = Cert.KernelIdeal.Walk.wt1 m c := a5
    have e6 : Cert.ReferenceIdeal.RefValue.bs1 m' c = Cert.KernelIdeal.Walk.bs1 m c := a6
    have e7 : Cert.ReferenceIdeal.RefValue.wt2 m' c = Cert.KernelIdeal.Walk.wt2 m c := a7
    have e8 : Cert.ReferenceIdeal.RefValue.bs2 m' c = Cert.KernelIdeal.Walk.bs2 m c := a8
    refine ⟨(h c).1.trans ?_, (h c).2.1.trans ?_, (h c).2.2⟩
    · rw [Cert.ReferenceIdeal.RefValue.first, e0, e1, e2, e3, e4, e5, e6, e7, e8]
    · rw [Cert.ReferenceIdeal.RefValue.second, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
